-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x1 : Shape := ⟨2, ![4096, 1]⟩
abbrev S1x4096 : Shape := ⟨2, ![1, 4096]⟩
abbrev S1024x1024 : Shape := ⟨2, ![1024, 1024]⟩
abbrev S512x1024 : Shape := ⟨2, ![512, 1024]⟩
abbrev S512x1 : Shape := ⟨2, ![512, 1]⟩
abbrev S1x512 : Shape := ⟨2, ![1, 512]⟩
abbrev S1024x512 : Shape := ⟨2, ![1024, 512]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S4096x1, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S4096x1 : S4096.ShapeCasts S4096x1
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x4096_S4x2048x4096 : S8192x4096.ShapeCasts S4x2048x4096
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, in each of its three control cases, as a value.

  The body keeps an accumulator in a scratch buffer. At the first point of a feature sweep it stores the zero block,
  reads it back and stores the update over it; at the later points it stores the update over what the point before
  left; at the last point of the sweep it also stores, into the output's buffer, the epilogue of the update it has just
  made. Every store covers its whole buffer and every load reads a whole buffer, so what a buffer ends holding is the
  last store's value, with each load replaced by the contents it read: the input tiles as given, the accumulator as
  the point before left it, or, for a load that follows a store in the same run, that store's value.
  All of it at any float instance.
-/
import proofs.«147840_j74783970558154_1_alg».proof.Proof.Gen.KernelIdeal.Frame
import Idealize.ShloMosaic.Lib.Pipeline.Value
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.Sem

variable {F : FTy → Type} [FloatOps F]

/-- Every rectangle the body touches starts at the origin of its buffer. -/
theorem hz : (![0, 0] : Fin 2 → Nat) = fun _ => 0 := funext fun a => by fin_cases a <;> rfl

/-- First point of a sweep: the accumulator ends at the update of the zero block. -/
theorem scratch_first (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1024x1024 .f32) (x1 : Vec F S512x1024 .i32) (x2 : Vec F S512x1 .f32) (x3 : Vec F S1x512 .f32) :
    sout0_A_0 c i arg3 harg3 arg4 harg4 arg5 harg5 arg6 harg6 arg7 harg7 arg8 harg8 hc0 hc1 x0 x1 x2 x3 = k0_pay2 x1 x2 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg8.read_unread, View.ld_unit_zero (S := S1024x1024) hz, View.ld_unit_zero (S := S512x1024) hz, View.ld_unit_zero (S := S512x1) hz, View.ld_unit_zero (S := S1x512) hz, View.ld_unit_zero (S := S1024x512) hz]

/-- A middle point: the accumulator ends at the update of what the point before left. -/
theorem scratch_middle (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i)
    (x0 : Vec F S1024x1024 .f32) (x1 : Vec F S512x1024 .i32) (x2 : Vec F S512x1 .f32) (x3 : Vec F S1x512 .f32) (xs0 : Vec F S1024x512 .f32) :
    sout0_B_0 c i arg3 harg3 arg4 harg4 arg5 harg5 arg6 harg6 arg7 harg7 arg8 harg8 hc0 hc1 x0 x1 x2 x3 xs0 = k0_pay2 x1 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread, View.ld_unit_zero (S := S1024x1024) hz, View.ld_unit_zero (S := S512x1024) hz, View.ld_unit_zero (S := S512x1) hz, View.ld_unit_zero (S := S1x512) hz, View.ld_unit_zero (S := S1024x512) hz]

/-- Last point of a sweep: the accumulator likewise, -/
theorem scratch_last (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x1024 .f32) (x1 : Vec F S512x1024 .i32) (x2 : Vec F S512x1 .f32) (x3 : Vec F S1x512 .f32) (xs0 : Vec F S1024x512 .f32) :
    sout0_C_0 c i arg3 harg3 arg4 harg4 arg5 harg5 arg6 harg6 arg7 harg7 arg8 harg8 hc0 hc1 x0 x1 x2 x3 xs0 = k0_pay2 x1 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S1024x1024) hz, View.ld_unit_zero (S := S512x1024) hz, View.ld_unit_zero (S := S512x1) hz, View.ld_unit_zero (S := S1x512) hz, View.ld_unit_zero (S := S1024x512) hz]

/-- and the output's buffer ends at the epilogue of that same update. -/
theorem out_last (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x1024 .f32) (x1 : Vec F S512x1024 .i32) (x2 : Vec F S512x1 .f32) (x3 : Vec F S1x512 .f32) (xs0 : Vec F S1024x512 .f32) :
    out0_C_4 c i arg3 harg3 arg4 harg4 arg5 harg5 arg6 harg6 arg7 harg7 arg8 harg8 hc0 hc1 x0 x1 x2 x3 xs0 = k0_pay3 (k0_pay2 x1 x2 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S1024x1024) hz, View.ld_unit_zero (S := S512x1024) hz, View.ld_unit_zero (S := S512x1) hz, View.ld_unit_zero (S := S1x512) hz, View.ld_unit_zero (S := S1024x512) hz, View.readCov_unit_zero (S := S1024x512) _ hz]

end Cert.KernelIdeal.Tile

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Payload.lean ====
/-
  The three values the kernel body stores, read entry by entry over the extended reals.

  The body keeps a 1024 × 512 accumulator. Its reset value is the zero block. Its update adds, at entry `(p, c)`, the
  contraction over the tile's 1024 features of the activation tile's row `p` against the weight tile's row `c`, where
  a weight is the integer read as a number times the scale of its row (the scales come as a 512 × 1 column, spread
  along the features). Its epilogue adds the bias, a 1 × 512 row spread down the 1024 rows. The narrowing of both
  tiles to a shorter float format before the product changes nothing over the extended reals, and the product into
  a zero accumulator is the bare sum.
-/
import proofs.«147840_j74783970558154_1_alg».proof.Proof.Gen.KernelIdeal.Skeleton
import proofs.«147840_j74783970558154_1_alg».proof.Proof.LibContraction
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Lib.Contraction

/-- The tile product's dimension numbers: feature axis 1 of both tiles contracted, rows free, no batch. -/
abbrev D : DotDims S1024x1024 S512x1024 S1024x512 := dot_S1024x1024_S512x1024_S1024x512_1_1_0_0_n_n

/-- The contraction's positions, numbered by the tile's features. -/
abbrev pos (e : Fin 1024) : D.contr.Idx := (contrFin D (cl := 1) rfl 1024 rfl).symm e

/-- At feature `e` the product reads the activation tile at `(p, e)`. -/
theorem lhs_at (p : Fin 1024) (c : Fin 512) (e : Fin 1024) : D.lhsIdx (ix2 p c) (pos e) = ix2 p e := by
  funext a
  apply Fin.ext
  match a with
  | ⟨0, _⟩ => exact lhs_free D (nl := 0) rfl rfl (ix2 p c) (pos e) (by decide)
  | ⟨1, _⟩ => exact lhs_contracted D (cl := 1) rfl 1024 rfl (ix2 p c) e

/-- At feature `e` the product reads the weight tile at `(c, e)`. -/
theorem rhs_at (p : Fin 1024) (c : Fin 512) (e : Fin 1024) : D.rhsIdx (ix2 p c) (pos e) = ix2 c e := by
  funext a
  apply Fin.ext
  match a with
  | ⟨0, _⟩ => exact rhs_free D (nl := 0) (nr := 0) rfl rfl rfl rfl (ix2 p c) (pos e) (by decide)
  | ⟨1, _⟩ => exact rhs_contracted D (cl := 1) (cr := 1) rfl rfl 1024 rfl (ix2 p c) e

/-- A 512 × 1 column spread along 1024 features reads its row's one entry. -/
theorem spread_column {α : Type} (s : S512x1.Idx → α) (c : Fin 512) (e : Fin 1024) :
    broadcastTo S512x1024 s broadcasts_S512x1_S512x1024 (ix2 c e) = s (ix2 c 0) :=
  broadcastTo_apply s broadcasts_S512x1_S512x1024 (ix2 c e) (ix2 c 0) fun a => match a with
    | ⟨0, _⟩ => by show c.val = if (512 : Nat) = 1 then 0 else c.val; rw [if_neg (by decide)]
    | ⟨1, _⟩ => by show 0 = if (1 : Nat) = 1 then 0 else e.val; rw [if_pos rfl]

/-- A 1 × 512 row spread down 1024 rows reads its column's one entry. -/
theorem spread_row {α : Type} (b : S1x512.Idx → α) (p : Fin 1024) (c : Fin 512) :
    broadcastTo S1024x512 b broadcasts_S1x512_S1024x512 (ix2 p c) = b (ix2 0 c) :=
  broadcastTo_apply b broadcasts_S1x512_S1024x512 (ix2 p c) (ix2 0 c) fun a => match a with
    | ⟨0, _⟩ => by show 0 = if (1 : Nat) = 1 then 0 else p.val; rw [if_pos rfl]
    | ⟨1, _⟩ => by show c.val = if (512 : Nat) = 1 then 0 else c.val; rw [if_neg (by decide)]

/-- The reset value is zero everywhere. -/
theorem reset_at (y : S1024x512.Idx) : k0_pay1 (F := Ideal) y = 0 := by
  unfold k0_pay1
  rw [shapeCast_self]
  exact Ideal.ofBits_zero_f32

/-- The update at `(p, c)`: what the accumulator held there, plus the tile's contraction. -/
theorem update_at (q : Vec Ideal S512x1024 .i32) (s : Vec Ideal S512x1 .f32) (x : Vec Ideal S1024x1024 .f32)
    (acc : Vec Ideal S1024x512 .f32) (p : Fin 1024) (c : Fin 512) :
    k0_pay2 (F := Ideal) q s x acc (ix2 p c)
      = acc (ix2 p c) + ∑ e : Fin 1024, x (ix2 p e) * (FloatOps.sitofp (F := Ideal) .f32 (q (ix2 c e)) * s (ix2 c 0)) := by
  unfold k0_pay2
  rw [shapeCast_self, addf_apply]
  refine congrArg (acc (ix2 p c) + ·) ?_
  simp only [matmul]
  rw [Ideal.matmul_constant_zero_apply, sum_contr D (cl := 1) rfl 1024 rfl]
  refine Finset.sum_congr rfl fun e _ => ?_
  rw [lhs_at, rhs_at, truncf_apply, truncf_apply, shapeCast_self, shapeCast_self, mulf_apply, sitofp_apply, spread_column]

/-- The epilogue at `(p, c)`: the accumulator there plus the bias of column `c`. -/
theorem epilogue_at (acc : Vec Ideal S1024x512 .f32) (b : Vec Ideal S1x512 .f32) (p : Fin 1024) (c : Fin 512) :
    k0_pay3 (F := Ideal) acc b (ix2 p c) = acc (ix2 p c) + b (ix2 0 c) := by
  unfold k0_pay3
  rw [addf_apply, shapeCast_self, shapeCast_self, spread_row]

end Cert.KernelIdeal.Tile

end
-- ==== Proof.Blocks.lean ====
/-
  Where each tile sits in its array.

  The 256 grid points run over (row block, channel block, feature run) = (8, 8, 4) with the feature run fastest:
  point `t` is row block `t / 32`, channel block `t / 4 % 8`, feature run `t % 4`. At that point the activation tile
  is rows `1024·(t/32) + p`, features `1024·(t%4) + e` of the 8192 × 4096 activations; the weight tile is channels
  `512·(t/4%8) + c` and the same features of the 4096 × 4096 weights; the scale tile is those channels of the 4096 × 1
  column; the bias tile those channels of the 1 × 4096 row. Each window's block index is decided once over the grid;
  an entry of a block is then the array's entry at (block index × block size + the coordinate inside), axis by axis.
-/
import proofs.«147840_j74783970558154_1_alg».proof.Proof.Gen.KernelIdeal.Frame
import Idealize.ShloMosaic.Lib.Pipeline.Value
import Idealize.ShloMosaic.Lib.ValueIdx

noncomputable section

namespace Cert.KernelIdeal.Tile

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The arrays as the region finds them, and the tiles at a point, at their literal types -/

/-- The activations, flattened to 8192 rows. -/
abbrev acts (c : Dev nD) : Vec F S8192x4096 .f32 := V m c main_v0
/-- The integer weights. -/
abbrev wts (c : Dev nD) : Vec F S4096x4096 .i32 := V m c main_arg1
/-- The per-channel scales as a column. -/
abbrev scales (c : Dev nD) : Vec F S4096x1 .f32 := V m c main_v1
/-- The per-channel biases as a row. -/
abbrev biases (c : Dev nD) : Vec F S1x4096 .f32 := V m c main_v2

abbrev actTile (c : Dev nD) (t : Fin cfg0.N) : Vec F S1024x1024 .f32 := iblk m c 0 t
abbrev wtTile (c : Dev nD) (t : Fin cfg0.N) : Vec F S512x1024 .i32 := iblk m c 1 t
abbrev scaleTile (c : Dev nD) (t : Fin cfg0.N) : Vec F S512x1 .f32 := iblk m c 2 t
abbrev biasTile (c : Dev nD) (t : Fin cfg0.N) : Vec F S1x512 .f32 := iblk m c 3 t

/-! ## A point's row block, channel block and feature run -/

theorem lt256 (t : Fin cfg0.N) : t.val < 256 := lt_of_lt_of_eq t.isLt (show cfg0.N = 256 from N_0)

/-- Row `p` of the tile at point `t`, among the 8192 rows. -/
def rowAt (t : Fin cfg0.N) (p : Fin 1024) : Fin 8192 :=
  ⟨1024 * (t.val / 32) + p.val, by have := lt256 t; have := p.isLt; omega⟩
/-- Channel `c` of the tile at point `t`, among the 4096 output channels. -/
def chanAt (t : Fin cfg0.N) (c : Fin 512) : Fin 4096 :=
  ⟨512 * (t.val / 4 % 8) + c.val, by have := c.isLt; omega⟩
/-- Feature `e` of the tile at point `t`, among the 4096 input features. -/
def featAt (t : Fin cfg0.N) (e : Fin 1024) : Fin 4096 :=
  ⟨1024 * (t.val % 4) + e.val, by have := e.isLt; omega⟩

/-! ## The block indices, decided over the grid -/

theorem index_acts : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)
theorem index_wts : ∀ t : Fin cfg0.N, win0_1.index t (0 : Fin 2) = t.val / 4 % 8 ∧ win0_1.index t (1 : Fin 2) = t.val % 4 :=
  (by decide +kernel : ∀ t : Fin grid0.N, win0_1.index t (0 : Fin 2) = t.val / 4 % 8 ∧ win0_1.index t (1 : Fin 2) = t.val % 4)
theorem index_scales : ∀ t : Fin cfg0.N, win0_2.index t (0 : Fin 2) = t.val / 4 % 8 ∧ win0_2.index t (1 : Fin 2) = 0 :=
  (by decide +kernel : ∀ t : Fin grid0.N, win0_2.index t (0 : Fin 2) = t.val / 4 % 8 ∧ win0_2.index t (1 : Fin 2) = 0)
theorem index_biases : ∀ t : Fin cfg0.N, win0_3.index t (0 : Fin 2) = 0 ∧ win0_3.index t (1 : Fin 2) = t.val / 4 % 8 :=
  (by decide +kernel : ∀ t : Fin grid0.N, win0_3.index t (0 : Fin 2) = 0 ∧ win0_3.index t (1 : Fin 2) = t.val / 4 % 8)
theorem index_out : ∀ t : Fin cfg0.N, win0_4.index t (0 : Fin 2) = t.val / 32 ∧ win0_4.index t (1 : Fin 2) = t.val / 4 % 8 :=
  (by decide +kernel : ∀ t : Fin grid0.N, win0_4.index t (0 : Fin 2) = t.val / 32 ∧ win0_4.index t (1 : Fin 2) = t.val / 4 % 8)

/-! ## A tile's entry in its array -/

theorem actTile_at (c : Dev nD) (t : Fin cfg0.N) (p e : Fin 1024) :
    actTile m c t (ix2 p e) = acts m c (ix2 (rowAt t p) (featAt t e)) := by
  unfold actTile iblk
  rw [View.read_apply]
  show V m c main_v0 _ = V m c main_v0 _
  congr 1
  funext a
  apply Fin.ext
  match a with
  | ⟨0, _⟩ => show win0_0.index t 0 * 1024 + 1 * p.val = 1024 * (t.val / 32) + p.val; rw [(index_acts t).1]; omega
  | ⟨1, _⟩ => show win0_0.index t 1 * 1024 + 1 * e.val = 1024 * (t.val % 4) + e.val; rw [(index_acts t).2]; omega

theorem wtTile_at (c : Dev nD) (t : Fin cfg0.N) (k : Fin 512) (e : Fin 1024) :
    wtTile m c t (ix2 k e) = wts m c (ix2 (chanAt t k) (featAt t e)) := by
  unfold wtTile iblk
  rw [View.read_apply]
  show V m c main_arg1 _ = V m c main_arg1 _
  congr 1
  funext a
  apply Fin.ext
  match a with
  | ⟨0, _⟩ => show win0_1.index t 0 * 512 + 1 * k.val = 512 * (t.val / 4 % 8) + k.val; rw [(index_wts t).1]; omega
  | ⟨1, _⟩ => show win0_1.index t 1 * 1024 + 1 * e.val = 1024 * (t.val % 4) + e.val; rw [(index_wts t).2]; omega

theorem scaleTile_at (c : Dev nD) (t : Fin cfg0.N) (k : Fin 512) :
    scaleTile m c t (ix2 k 0) = scales m c (ix2 (chanAt t k) 0) := by
  unfold scaleTile iblk
  rw [View.read_apply]
  show V m c main_v1 _ = V m c main_v1 _
  congr 1
  funext a
  apply Fin.ext
  match a with
  | ⟨0, _⟩ => show win0_2.index t 0 * 512 + 1 * k.val = 512 * (t.val / 4 % 8) + k.val; rw [(index_scales t).1]; omega
  | ⟨1, _⟩ => show win0_2.index t 1 * 1 + 1 * 0 = 0; rw [(index_scales t).2]

theorem biasTile_at (c : Dev nD) (t : Fin cfg0.N) (k : Fin 512) :
    biasTile m c t (ix2 0 k) = biases m c (ix2 0 (chanAt t k)) := by
  unfold biasTile iblk
  rw [View.read_apply]
  show V m c main_v2 _ = V m c main_v2 _
  congr 1
  funext a
  apply Fin.ext
  match a with
  | ⟨0, _⟩ => show win0_3.index t 0 * 1 + 1 * 0 = 0; rw [(index_biases t).1]
  | ⟨1, _⟩ => show win0_3.index t 1 * 512 + 1 * k.val = 512 * (t.val / 4 % 8) + k.val; rw [(index_biases t).2]; omega

end Cert.KernelIdeal.Tile

end
-- ==== Proof.Spec.lean ====
/-
  A linear layer over integer weights with one scale per output channel, as ONE function of its four arguments,
  and the law by which a sum over the 4096 input features may be taken in four runs of 1024.

  For an activation row `x`, an integer weight row `q` of output channel `o`, that channel's scale `s o` and bias
  `b o`, the layer's entry is `(∑ i, x i · (q i · s o)) + b o`: the weight is first read as a number (the integer,
  signed, exactly) and multiplied by its channel's scale, then the row of activations is contracted against it.
  The only law used is that a sum in an additive commutative monoid does not depend on how it is bracketed: the
  extended reals are one, infinities included, so nothing here asks any entry to be finite.
-/
import Idealize.ShloMosaic.PureOps.Ideal.Laws
import Idealize.ShloMosaic.Lib.ValueIdx

noncomputable section

open scoped BigOperators

namespace Cert.QLinear

open Idealize.ShloMosaic Idealize.ShloMosaic.ValueIdx

/-- Input feature number `e` of the `k`-th run of 1024 consecutive features. -/
def feat (k : Fin 4) (e : Fin 1024) : Fin 4096 :=
  ⟨1024 * k.val + e.val, by have := k.isLt; have := e.isLt; omega⟩

theorem feat_val (k : Fin 4) (e : Fin 1024) : (feat k e).val = 1024 * k.val + e.val := rfl

/-- Every feature is in exactly one run: a sum over the features is the sum, over the runs, of the sums inside them. -/
theorem sum_feat {M : Type*} [AddCommMonoid M] (f : Fin 4096 → M) :
    ∑ i, f i = ∑ k : Fin 4, ∑ e : Fin 1024, f (feat k e) := by
  have h := (Equiv.sum_comp (finProdFinEquiv : Fin 4 × Fin 1024 ≃ Fin (4 * 1024)) (fun i : Fin (4 * 1024) => f i)).symm
  refine h.trans ?_
  rw [Fintype.sum_prod_type]
  refine Finset.sum_congr rfl fun k _ => Finset.sum_congr rfl fun e _ => congrArg f (Fin.ext ?_)
  show e.val + 1024 * k.val = 1024 * k.val + e.val
  omega

/-- Started at zero and adding one run's sum after another, first to last, gives the sum over all the features. -/
theorem runs_from_zero {M : Type*} [AddCommMonoid M] (f : Fin 4096 → M) :
    (((0 + ∑ e, f (feat 0 e)) + ∑ e, f (feat 1 e)) + ∑ e, f (feat 2 e)) + ∑ e, f (feat 3 e) = ∑ i, f i := by
  rw [sum_feat, Fin.sum_univ_four, zero_add]

/-- The layer's entry `(b, t, o)`: the contraction of activation row `(b, t)` against output channel `o`'s weights, each
    the integer read as a number times the channel's scale, plus the channel's bias. -/
def linearAt (x : FVec Ideal ⟨3, ![4, 2048, 4096]⟩ .f32) (q : IVec ⟨2, ![4096, 4096]⟩ 32)
    (s b : FVec Ideal ⟨1, ![4096]⟩ .f32) (n : Fin 4) (t : Fin 2048) (o : Fin 4096) : Ideal .f32 :=
  (∑ i : Fin 4096, x (ix3 n t i) * (FloatOps.sitofp (F := Ideal) .f32 (q (ix2 o i)) * s (ix1 o))) + b (ix1 o)

/-- The layer, as an array. -/
def linear (x : FVec Ideal ⟨3, ![4, 2048, 4096]⟩ .f32) (q : IVec ⟨2, ![4096, 4096]⟩ 32)
    (s b : FVec Ideal ⟨1, ![4096]⟩ .f32) : FVec Ideal ⟨3, ![4, 2048, 4096]⟩ .f32 :=
  fun j => linearAt x q s b (j 0) (j 1) (j 2)

theorem linear_apply (x : FVec Ideal ⟨3, ![4, 2048, 4096]⟩ .f32) (q : IVec ⟨2, ![4096, 4096]⟩ 32)
    (s b : FVec Ideal ⟨1, ![4096]⟩ .f32) (n : Fin 4) (t : Fin 2048) (o : Fin 4096) :
    linear x q s b (ix3 n t o) = linearAt x q s b n t o := rfl

end Cert.QLinear

end
-- ==== Proof.Scratch.lean ====
/-
  The accumulator, point by point.

  Along one sweep of the four feature runs (four consecutive points, the first at a multiple of four) the row block
  and the channel block stay put and only the feature run moves. The accumulator is reset at the sweep's first point
  and at each point gains, at entry `(p, k)`, the contraction of that point's activation tile row `p` against its
  weight tile row `k`. So after the sweep's last point it holds, entry by entry, the four runs' contractions added
  first to last onto zero — which is the contraction over all 4096 features of activation row `p` of the row block
  against channel `k` of the channel block. The first half of this file is the recursion itself, at any float
  instance; the second reads it entry by entry over the extended reals, by induction on the point.
-/
import proofs.«147840_j74783970558154_1_alg».proof.Proof.Pieces
import proofs.«147840_j74783970558154_1_alg».proof.Proof.Payload
import proofs.«147840_j74783970558154_1_alg».proof.Proof.Blocks
import proofs.«147840_j74783970558154_1_alg».proof.Proof.Spec

noncomputable section

open scoped BigOperators

namespace Cert.KernelIdeal.Tile

open Cert.KernelIdeal Cert.KernelIdeal.Gen
open Idealize.ShloMosaic Idealize.ShloMosaic.TcCoe Idealize.ShloMosaic.ValueIdx Idealize.SL.Sem
open Cert.QLinear (feat runs_from_zero)

/-! ## The recursion, at any float instance -/

section AnyInstance

variable {F : FTy → Type} [FloatOps F]
variable (m : (ℓ : Loc nD τ sig) → Buf (Elt F) ℓ)

/-- At a sweep's first point the accumulator ends at the update of the zero block by that point's tiles. -/
theorem scratch_at_first (c : Dev nD) (t : Fin cfg0.N) (h0 : t.val % 4 = 0) :
    (outsAt0 m c t.val t.isLt).2
      = k0_pay2 (wtTile m c t) (scaleTile m c t) (actTile m c t) (k0_pay1 (F := F)) := by
  have h1 : ¬t.val % 4 = 3 := by omega
  rw [outsAt0_A m c t h0 h1]
  dsimp only
  exact scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every other point it ends at the update, by that point's tiles, of what the point before left. -/
theorem scratch_at_next (c : Dev nD) (n : ℕ) (h : n + 1 < cfg0.N) (h0 : ¬(n + 1) % 4 = 0) :
    (outsAt0 m c (n + 1) h).2
      = k0_pay2 (wtTile m c ⟨n + 1, h⟩) (scaleTile m c ⟨n + 1, h⟩) (actTile m c ⟨n + 1, h⟩) (outsAt0 m c n (Nat.lt_of_succ_lt h)).2 := by
  by_cases h1 : (n + 1) % 4 = 3
  · rw [outsAt0_C m c ⟨n + 1, h⟩ h0 h1]
    dsimp only
    exact scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2
  · rw [outsAt0_B m c ⟨n + 1, h⟩ h0 h1]
    dsimp only
    exact scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩) (outsAt0 m c n (Nat.lt_of_succ_lt h)).2

/-- At a sweep's last point the output's buffer ends at the epilogue of the accumulator as that point leaves it. -/
theorem out_at_last (c : Dev nD) (n : ℕ) (h : n + 1 < cfg0.N) (h1 : (n + 1) % 4 = 3) :
    (outsAt0 m c (n + 1) h).1 = k0_pay3 (outsAt0 m c (n + 1) h).2 (biasTile m c ⟨n + 1, h⟩) := by
  have h0 : ¬(n + 1) % 4 = 0 := by omega
  rw [scratch_at_next m c n h h0, outsAt0_C m c ⟨n + 1, h⟩ h0 h1]
  dsimp only
  exact out_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2

end AnyInstance

/-! ## Entry by entry, over the extended reals -/

section AtIdeal

variable (m : (ℓ : Loc nD τ sig) → Buf (Elt Ideal) ℓ)

/-- One feature's term of the contraction of activation row `p` of point `t`'s row block against channel `k` of its
    channel block: the activation times the weight, the weight being the integer read as a number times its
    channel's scale. -/
def rowTerm (c : Dev nD) (t : Fin cfg0.N) (p : Fin 1024) (k : Fin 512) (i : Fin 4096) : Ideal .f32 :=
  acts m c (ix2 (rowAt t p) i)
    * (FloatOps.sitofp (F := Ideal) .f32 (wts m c (ix2 (chanAt t k) i)) * scales m c (ix2 (chanAt t k) 0))

/-- The contraction over the one feature run point `t` stages. -/
def tileSum (c : Dev nD) (t : Fin cfg0.N) (p : Fin 1024) (k : Fin 512) : Ideal .f32 :=
  ∑ e : Fin 1024, rowTerm m c t p k (featAt t e)

/-- The update by point `t`'s tiles adds that contraction. -/
theorem update_tile (c : Dev nD) (t : Fin cfg0.N) (acc : Vec Ideal S1024x512 .f32) (p : Fin 1024) (k : Fin 512) :
    k0_pay2 (F := Ideal) (wtTile m c t) (scaleTile m c t) (actTile m c t) acc (ix2 p k)
      = acc (ix2 p k) + tileSum m c t p k := by
  rw [update_at]
  unfold tileSum rowTerm
  refine congrArg (acc (ix2 p k) + ·) (Finset.sum_congr rfl fun e _ => ?_)
  rw [actTile_at, wtTile_at, scaleTile_at]

/-- What entry `(p, k)` of the accumulator holds after point `n`: restarted from zero at a sweep's first point,
    otherwise the entry after the point before, plus the point's contraction. -/
def accAfter (c : Dev nD) (p : Fin 1024) (k : Fin 512) : (n : ℕ) → n < cfg0.N → Ideal .f32
  | 0, h => 0 + tileSum m c ⟨0, h⟩ p k
  | n + 1, h =>
    if (n + 1) % 4 = 0 then 0 + tileSum m c ⟨n + 1, h⟩ p k
    else accAfter c p k n (Nat.lt_of_succ_lt h) + tileSum m c ⟨n + 1, h⟩ p k

theorem accAfter_start (c : Dev nD) (p : Fin 1024) (k : Fin 512) (n : ℕ) (h : n < cfg0.N) (h0 : n % 4 = 0) :
    accAfter m c p k n h = 0 + tileSum m c ⟨n, h⟩ p k := by
  cases n with
  | zero => rfl
  | succ n => unfold accAfter; exact if_pos h0

theorem accAfter_step (c : Dev nD) (p : Fin 1024) (k : Fin 512) (n : ℕ) (h : n + 1 < cfg0.N) (h0 : ¬(n + 1) % 4 = 0) :
    accAfter m c p k (n + 1) h = accAfter m c p k n (Nat.lt_of_succ_lt h) + tileSum m c ⟨n + 1, h⟩ p k := by
  conv_lhs => unfold accAfter
  exact if_neg h0

/-- The accumulator's entry after each point, by induction on the point. -/
theorem scratch_entry (c : Dev nD) (p : Fin 1024) (k : Fin 512) :
    ∀ (n : ℕ) (h : n < cfg0.N), (outsAt0 m c n h).2 (ix2 p k) = accAfter m c p k n h
  | 0, h => by
    rw [scratch_at_first m c ⟨0, h⟩ rfl, update_tile, reset_at]
    rfl
  | n + 1, h => by
    by_cases h0 : (n + 1) % 4 = 0
    · rw [accAfter_start m c p k (n + 1) h h0, scratch_at_first m c ⟨n + 1, h⟩ h0, update_tile, reset_at]
    · rw [accAfter_step m c p k n h h0, scratch_at_next m c n h h0, update_tile, scratch_entry c p k n]

/-- After the fourth point of a sweep: the four contractions added first to last onto zero. -/
theorem accAfter_sweep (c : Dev nD) (p : Fin 1024) (k : Fin 512) (n : ℕ) (h : n + 1 + 1 + 1 < cfg0.N) (h0 : n % 4 = 0) :
    accAfter m c p k (n + 1 + 1 + 1) h
      = (((0 + tileSum m c ⟨n, by omega⟩ p k) + tileSum m c ⟨n + 1, by omega⟩ p k)
          + tileSum m c ⟨n + 1 + 1, by omega⟩ p k) + tileSum m c ⟨n + 1 + 1 + 1, h⟩ p k := by
  rw [accAfter_step m c p k (n + 1 + 1) h (by omega), accAfter_step m c p k (n + 1) (by omega) (by omega),
    accAfter_step m c p k n (by omega) (by omega), accAfter_start m c p k n (by omega) h0]

/-- A point of the same sweep as `t` stages the same rows and channels as `t`, and the feature run its place in the
    sweep names: its contraction is that run's part of `t`'s row-against-channel sum. -/
theorem tileSum_run (c : Dev nD) (t t' : Fin cfg0.N) (j : Fin 4) (hs : t'.val / 4 = t.val / 4) (hj : t'.val % 4 = j.val)
    (p : Fin 1024) (k : Fin 512) : tileSum m c t' p k = ∑ e : Fin 1024, rowTerm m c t p k (feat j e) := by
  have hr : rowAt t' p = rowAt t p :=
    Fin.ext (by show 1024 * (t'.val / 32) + p.val = 1024 * (t.val / 32) + p.val; omega)
  have hc : chanAt t' k = chanAt t k :=
    Fin.ext (by show 512 * (t'.val / 4 % 8) + k.val = 512 * (t.val / 4 % 8) + k.val; rw [hs])
  have hf : ∀ e, featAt t' e = feat j e := fun e =>
    Fin.ext (by show 1024 * (t'.val % 4) + e.val = 1024 * j.val + e.val; rw [hj])
  unfold tileSum rowTerm
  simp only [hr, hc, hf]

/-- So after a sweep's last point `t` the accumulator's entry `(p, k)` is the contraction over all 4096 features. -/
theorem scratch_at_last (c : Dev nD) (t : Fin cfg0.N) (h3 : t.val % 4 = 3) (p : Fin 1024) (k : Fin 512) :
    (outsAt0 m c t.val t.isLt).2 (ix2 p k) = ∑ i : Fin 4096, rowTerm m c t p k i := by
  obtain ⟨tv, ht⟩ := t
  have h3' : tv % 4 = 3 := h3
  obtain ⟨n, rfl⟩ : ∃ n, tv = n + 1 + 1 + 1 := ⟨tv - 3, by omega⟩
  have hn : n % 4 = 0 := by omega
  have e0 := tileSum_run m c ⟨n + 1 + 1 + 1, ht⟩ ⟨n, by omega⟩ 0 (by show n / 4 = (n + 1 + 1 + 1) / 4; omega) (by show n % 4 = 0; omega) p k
  have e1 := tileSum_run m c ⟨n + 1 + 1 + 1, ht⟩ ⟨n + 1, by omega⟩ 1 (by show (n + 1) / 4 = (n + 1 + 1 + 1) / 4; omega) (by show (n + 1) % 4 = 1; omega) p k
  have e2 := tileSum_run m c ⟨n + 1 + 1 + 1, ht⟩ ⟨n + 1 + 1, by omega⟩ 2 (by show (n + 1 + 1) / 4 = (n + 1 + 1 + 1) / 4; omega) (by show (n + 1 + 1) % 4 = 2; omega) p k
  have e3 := tileSum_run m c ⟨n + 1 + 1 + 1, ht⟩ ⟨n + 1 + 1 + 1, ht⟩ 3 rfl (by show (n + 1 + 1 + 1) % 4 = 3; omega) p k
  show (outsAt0 m c (n + 1 + 1 + 1) ht).2 (ix2 p k) = _
  rw [scratch_entry m c p k (n + 1 + 1 + 1) ht, accAfter_sweep m c p k n ht hn, e0, e1, e2, e3]
  exact runs_from_zero (rowTerm m c ⟨n + 1 + 1 + 1, ht⟩ p k)

end AtIdeal

end Cert.KernelIdeal.Tile

end
-- ==== Proof.HostArrays.lean ====
/-
  The three arrays the host prepares before the region, read entry by entry.

  The activations are flattened from (4, 2048, 4096) to 8192 rows: row `2048·b + t` is `(b, t)`. The scales become a
  4096 × 1 column and the biases a 1 × 4096 row. Each is a reshape, which keeps an entry at its row-major position;
  the integer weights reach the region as launched.
-/
import proofs.«147840_j74783970558154_1_alg».proof.Proof.Blocks
import Idealize.ShloMosaic.Lib.StableHlo.Run

noncomputable section

namespace Cert.KernelIdeal.Tile

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- Activation row `(b, t)` of the (4, 2048) leading axes, among the 8192 flattened rows. -/
def flatRow (b : Fin 4) (t : Fin 2048) : Fin 8192 :=
  ⟨2048 * b.val + t.val, by have := b.isLt; have := t.isLt; omega⟩

theorem acts_eq (c : Dev nD) :
    acts m c = shapeCast S8192x4096 (m ((c : Thread nD τ).loc main_arg0)) shapeCasts_S4x2048x4096_S8192x4096 := by
  show StableHlo.after hostOps0 (fun b => m (c, b)) (Proc.devRef .tc main_v0) = _
  after_results
  rfl

theorem scales_eq (c : Dev nD) :
    scales m c = shapeCast S4096x1 (m ((c : Thread nD τ).loc main_arg2)) shapeCasts_S4096_S4096x1 := by
  show StableHlo.after hostOps0 (fun b => m (c, b)) (Proc.devRef .tc main_v1) = _
  after_results
  rfl

theorem biases_eq (c : Dev nD) :
    biases m c = shapeCast S1x4096 (m ((c : Thread nD τ).loc main_arg3)) shapeCasts_S4096_S1x4096 := by
  show StableHlo.after hostOps0 (fun b => m (c, b)) (Proc.devRef .tc main_v2) = _
  after_results
  rfl

theorem wts_eq (c : Dev nD) : wts m c = m ((c : Thread nD τ).loc main_arg1) := V_main_arg1 m c

/-- The flattened activations at row `2048·b + t`, feature `i`: the activation `(b, t, i)`. -/
theorem acts_at (c : Dev nD) (b : Fin 4) (t : Fin 2048) (i : Fin 4096) :
    acts m c (ix2 (flatRow b t) i) = m ((c : Thread nD τ).loc main_arg0) (ix3 b t i) := by
  rw [acts_eq]
  refine shapeCast_apply _ _ _ _ ?_
  show (S4x2048x4096.rowMajor (ix3 b t i)).val = (S8192x4096.rowMajor (ix2 (flatRow b t) i)).val
  rw [Shape.rowMajor_val_three, Shape.rowMajor_val_two]
  show (b.val * 2048 + t.val) * 4096 + i.val = (2048 * b.val + t.val) * 4096 + i.val
  omega

/-- The scale column at row `o`: the scale of channel `o`. -/
theorem scales_at (c : Dev nD) (o : Fin 4096) :
    scales m c (ix2 o 0) = m ((c : Thread nD τ).loc main_arg2) (ix1 o) := by
  rw [scales_eq]
  refine shapeCast_apply _ _ _ _ ?_
  show (S4096.rowMajor (ix1 o)).val = (S4096x1.rowMajor (ix2 o 0)).val
  rw [Shape.rowMajor_val_one, Shape.rowMajor_val_two]
  show o.val = o.val * 1 + 0
  omega

/-- The bias row at column `o`: the bias of channel `o`. -/
theorem biases_at (c : Dev nD) (o : Fin 4096) :
    biases m c (ix2 0 o) = m ((c : Thread nD τ).loc main_arg3) (ix1 o) := by
  rw [biases_eq]
  refine shapeCast_apply _ _ _ _ ?_
  show (S4096.rowMajor (ix1 o)).val = (S1x4096.rowMajor (ix2 0 o)).val
  rw [Shape.rowMajor_val_one, Shape.rowMajor_val_two]
  show o.val = 0 * 4096 + o.val
  omega

end Cert.KernelIdeal.Tile

end
-- ==== Proof.Result.lean ====
/-
  What the kernel's result array holds after the run.

  The region's output is 8192 × 4096. It is written back only at the last point of each sweep over the feature runs,
  and the point that does so for row block `R` and channel block `C` writes rows `1024·R + p`, channels `512·C + k`
  with the accumulator's entry `(p, k)` plus the bias of that channel: the contraction over all 4096 features of
  activation row `1024·R + p` against channel `512·C + k`, plus the bias. These 64 blocks tile the output, so the whole
  output is that function of its row and channel. The host then reshapes it to (4, 2048, 4096), row `2048·b + t`
  becoming `(b, t)`, which with the host-made arrays read back to the arguments is the layer itself.
-/
import proofs.«147840_j74783970558154_1_alg».proof.Proof.Scratch
import proofs.«147840_j74783970558154_1_alg».proof.Proof.HostArrays

set_option maxRecDepth 16384

noncomputable section

open scoped BigOperators

namespace Cert.KernelIdeal.Tile

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The region's output -/

/-- Entry `(r, o)` of the region's output: activation row `r` contracted against channel `o`'s scaled weights, plus
    channel `o`'s bias. -/
def regionOut (c : Dev nD) : Vec Ideal S8192x4096 .f32 := fun y =>
  (∑ i : Fin 4096, acts m c (ix2 (y 0) i)
      * (FloatOps.sitofp (F := Ideal) .f32 (wts m c (ix2 (y 1) i)) * scales m c (ix2 (y 1) 0)))
    + biases m c (ix2 0 (y 1))

/-- What the last point `t` of a sweep leaves in the output's buffer at `(p, k)`: the region's output at that
    point's row `p` and channel `k`. -/
theorem out_entry (c : Dev nD) (t : Fin cfg0.N) (h3 : t.val % 4 = 3) (p : Fin 1024) (k : Fin 512) :
    (outsAt0 m c t.val t.isLt).1 (ix2 p k) = regionOut m c (ix2 (rowAt t p) (chanAt t k)) := by
  obtain ⟨tv, ht⟩ := t
  have h3' : tv % 4 = 3 := h3
  obtain ⟨n, rfl⟩ : ∃ n, tv = n + 1 := ⟨tv - 1, by omega⟩
  show (outsAt0 m c (n + 1) ht).1 (ix2 p k) = _
  rw [out_at_last m c n ht h3', epilogue_at, scratch_at_last m c ⟨n + 1, ht⟩ h3' p k, biasTile_at]
  rfl

/-- A written-back block is its rectangle of the region's output. -/
theorem flushed_out (c : Dev nD) (t : Fin cfg0.N) (hf : (cfg0.win 4).flush t = true) :
    (dats m 0 c).flushed 4 t = ((cfg0.win 4).blk t).view.read (Elt Ideal) (regionOut m c) := by
  have h3 : t.val % 4 = 3 := (flush0_4 t).mp hf
  show (cfg0.win 4).cut (grid0.coords t) ((dats m 0 c).after 4 t) = _
  rw [after0_4]
  refine funext fun (y : S1024x512.Idx) => ?_
  rw [View.read_apply]
  obtain ⟨p, k, rfl⟩ : ∃ (p : Fin 1024) (k : Fin 512), y = ix2 p k := ⟨y 0, y 1, eq_ix2 y⟩
  show (outsAt0 m c t.val t.isLt).1 (ix2 p k) = regionOut m c _
  rw [out_entry m c t h3 p k]
  congr 1
  funext a
  apply Fin.ext
  match a with
  | ⟨0, _⟩ => show 1024 * (t.val / 32) + p.val = win0_4.index t 0 * 1024 + 1 * p.val; rw [(index_out t).1]; omega
  | ⟨1, _⟩ => show 512 * (t.val / 4 % 8) + k.val = win0_4.index t 1 * 512 + 1 * k.val; rw [(index_out t).2]; omega

/-- The sweep's last point that writes the block holding output entry `i`. -/
def writer (i : S8192x4096.Idx) : Fin cfg0.N :=
  ⟨((i 0).val / 1024 * 8 + (i 1).val / 512) * 4 + 3, by
    have h0 : (i 0).val < 8192 := (i 0).isLt
    have h1 : (i 1).val < 4096 := (i 1).isLt
    rw [show cfg0.N = 256 from N_0]; omega⟩

theorem writer_val (i : S8192x4096.Idx) : (writer i).val = ((i 0).val / 1024 * 8 + (i 1).val / 512) * 4 + 3 := rfl

/-- Every entry of the output is in a block some point writes back. -/
theorem cover_out (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hv := writer_val i
  refine ⟨writer i, (flush0_4 _).mpr (by rw [hv]; omega), ?_⟩
  show i ∈ ((View.whole main_v3).slice (win0_4.rect (writer i))).set
  rw [View.set_slice_whole, Rect.mem_set_unit]
  intro a
  match a with
  | ⟨0, _⟩ =>
    show win0_4.index (writer i) 0 * 1024 ≤ (i 0).val ∧ (i 0).val < win0_4.index (writer i) 0 * 1024 + 1024
    rw [(index_out (writer i)).1, hv]; omega
  | ⟨1, _⟩ =>
    show win0_4.index (writer i) 1 * 512 ≤ (i 1).val ∧ (i 1).val < win0_4.index (writer i) 1 * 512 + 512
    rw [(index_out (writer i)).2, hv]; omega

/-- So the region's output array ends holding `regionOut`. -/
theorem region_final (c : Dev nD) : (dats m 0 c).arrAt 4 cfg0.N = regionOut m c :=
  (dats m 0 c).arrAt_eq_of_cover 4 (regionOut m c) (flushed_out m c) cover_out

/-! ## The result -/

/-- The kernel's result: the region's output reshaped to (4, 2048, 4096). -/
def result (c : Dev nD) : Vec Ideal S4x2048x4096 .f32 :=
  shapeCast S4x2048x4096 (regionOut m c) shapeCasts_S8192x4096_S4x2048x4096

/-- After the region the host's one reshape leaves the result in `main_v4`. -/
theorem tail_result (c : Dev nD) :
    Pipeline.afterTail₀ cfgs (dats m) 0 (V0 m) [hostOps1] c main_v4 = result m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = regionOut m c :=
    (Pipeline.withArrays_arr spec0 launch0.win.arr_inj c _ _ 4).trans (region_final m c)
  rw [e]
  rfl

/-- The run, read: every weakly fair execution ends with the result array at `result` and the arguments as launched. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The result is the layer of the four arguments as launched. -/
theorem result_is_linear (c : Dev nD) :
    result m c = Cert.QLinear.linear (m ((c.tc : Thread nD τ).loc main_arg0)) (m ((c.tc : Thread nD τ).loc main_arg1)) (m ((c.tc : Thread nD τ).loc main_arg2)) (m ((c.tc : Thread nD τ).loc main_arg3)) := by
  funext j
  obtain ⟨b, t, o, rfl⟩ : ∃ (b : Fin 4) (t : Fin 2048) (o : Fin 4096), j = ix3 b t o := ⟨j 0, j 1, j 2, eq_ix3 j⟩
  unfold result
  rw [shapeCast_apply (regionOut m c) shapeCasts_S8192x4096_S4x2048x4096 (ix3 b t o) (ix2 (flatRow b t) o) (by
    show (S8192x4096.rowMajor (ix2 (flatRow b t) o)).val = (S4x2048x4096.rowMajor (ix3 b t o)).val
    rw [Shape.rowMajor_val_two, Shape.rowMajor_val_three]
    show (2048 * b.val + t.val) * 4096 + o.val = (b.val * 2048 + t.val) * 4096 + o.val
    omega)]
  rw [Cert.QLinear.linear_apply]
  unfold regionOut Cert.QLinear.linearAt
  show (∑ i : Fin 4096, acts m c (ix2 (flatRow b t) i)
        * (FloatOps.sitofp (F := Ideal) .f32 (wts m c (ix2 o i)) * scales m c (ix2 o 0))) + biases m c (ix2 0 o) = _
  rw [scales_at, biases_at, wts_eq]
  refine congrArg (· + m ((c.tc : Thread nD τ).loc main_arg3) (ix1 o)) (Finset.sum_congr rfl fun i _ => ?_)
  rw [acts_at]

end Cert.KernelIdeal.Tile

end
-- ==== Proof.RefLayer.lean ====
/-
  The reference, read as the layer.

  The reference turns the integer weights into numbers, spreads the scales along the features and multiplies, contracts
  the activations' feature axis against the weights' feature axis, and adds the biases spread over the leading axes.
  Read at an entry `(b, t, o)`, stage by stage from the last inward: the sum over the features `i` of activation
  `(b, t, i)` times (weight `(o, i)` as a number times scale `o`), plus bias `o`. The stages' composed index functions are
  the plain coordinates.
-/
import proofs.«147840_j74783970558154_1_alg».proof.Proof.Gen.ReferenceIdeal.Read
import proofs.«147840_j74783970558154_1_alg».proof.Proof.Spec

noncomputable section

open scoped BigOperators

namespace Cert.ReferenceIdeal.Layer

open Cert.ReferenceIdeal Cert.ReferenceIdeal.Gen Cert.ReferenceIdeal.Read
open Idealize.ShloMosaic Idealize.ShloMosaic.ValueIdx
open Cert.QLinear (linear)

/-- The reference's result is the layer of its four arguments. -/
theorem reference_is_linear (x0 : FVec Ideal S4x2048x4096 .f32) (x1 : IVec S4096x4096 32) (x2 x3 : FVec Ideal S4096 .f32) :
    val_main_v7 (F := Ideal) x0 x1 x2 x3 = linear x0 x1 x2 x3 := by
  refine funext fun (j : S4x2048x4096.Idx) => ?_
  obtain ⟨n, t, o, rfl⟩ : ∃ (n : Fin 4) (t : Fin 2048) (o : Fin 4096), j = ix3 n t o := ⟨j 0, j 1, j 2, eq_ix3 j⟩
  have el : ∀ i : Fin 4096, lidx_main_v4 (ix3 n t o) i = ix3 n t i := fun i =>
    funext fun a => Fin.ext (by match a with | ⟨0, _⟩ => rfl | ⟨1, _⟩ => rfl | ⟨2, _⟩ => rfl)
  have er : ∀ i : Fin 4096, ridx_main_v4 (ix3 n t o) i = ix2 o i := fun i =>
    funext fun a => Fin.ext (by match a with | ⟨0, _⟩ => rfl | ⟨1, _⟩ => rfl)
  have es : ∀ i : Fin 4096, idx_main_v1 (idx_main_v2 (ix2 o i)) = ix1 o := fun i =>
    funext fun a => Fin.ext (by match a with | ⟨0, _⟩ => rfl)
  have eb : idx_main_v5 (idx_main_v6 (ix3 n t o)) = ix1 o :=
    funext fun a => Fin.ext (by match a with | ⟨0, _⟩ => rfl)
  rw [val_main_v7_apply, val_main_v4_apply, val_main_v6_apply, val_main_v5_apply, eb, Cert.QLinear.linear_apply]
  unfold Cert.QLinear.linearAt
  show (∑ i : Fin 4096, x0 (lidx_main_v4 (ix3 n t o) i) * val_main_v3 (F := Ideal) x1 x2 (ridx_main_v4 (ix3 n t o) i)) + x3 (ix1 o) = _
  refine congrArg (· + x3 (ix1 o)) (Finset.sum_congr rfl fun i _ => ?_)
  rw [el, er, val_main_v3_apply, val_main_v0_apply, val_main_v2_apply, val_main_v1_apply, es]
  rfl

end Cert.ReferenceIdeal.Layer

end
-- ==== Proof.lean ====
/-
  A quantised linear layer: a tiled kernel against the plain contraction.

  Both programs compute, for activations `x` of shape (4, 2048, 4096), integer weights `q` of shape (4096, 4096), and
  one scale and one bias per output channel, the array whose entry `(b, t, o)` is

      (∑ over the 4096 input features i of  x(b, t, i) · (q(o, i) read as a number · scale(o)))  +  bias(o).

  The reference does it with one contraction over the whole feature axis. The kernel flattens the activations to
  8192 rows and walks a grid of 8 row blocks × 8 channel blocks × 4 feature runs, the feature run fastest: at each
  point it multiplies a 1024 × 1024 activation tile by a 512 × 1024 tile of scaled weights and adds the product into a
  1024 × 512 accumulator that it resets at the first run of a sweep and, at the last, writes out with the bias added.
  Over the extended reals the tiles' narrowing to a shorter float format is the identity and a product into a zero
  accumulator is the bare sum, so after a sweep the accumulator holds the four runs' sums added first to last onto
  zero; an iterated sum does not depend on its bracketing (the extended reals are an additive commutative monoid,
  infinities included), so that is the sum over all 4096 features. No entry needs to be finite for this, and the
  precondition is never opened.

  The three frames: the two kernels' are the generated frame certificates; the reference's is its generated run with
  the result dropped. The idealization rewrote nothing, so its preservation conjunct is trivial. The modules:
  Spec (the layer as one function; the regrouping of the sum), LibContraction (a one-axis contraction by
  coordinates), Payload (the body's three stored values, entry by entry), Pieces (what each control case leaves in
  the accumulator and the output buffer), Blocks (where each tile sits in its array), Scratch (the accumulator by
  induction on the point), HostArrays (the arrays the host reshapes before the region), Result (the output array,
  the reshape after the region, the run), RefLayer (the reference read as the layer).
-/
import proofs.«147840_j74783970558154_1_alg».proof.Defs
import proofs.«147840_j74783970558154_1_alg».proof.Proof.Gen.Kernel
import proofs.«147840_j74783970558154_1_alg».proof.Proof.Gen.Kernel.Skeleton
import proofs.«147840_j74783970558154_1_alg».proof.Proof.Gen.Kernel.Launch
import proofs.«147840_j74783970558154_1_alg».proof.Proof.Gen.Kernel.Points
import proofs.«147840_j74783970558154_1_alg».proof.Proof.Gen.Kernel.Frame
import proofs.«147840_j74783970558154_1_alg».proof.Proof.Gen.KernelIdeal
import proofs.«147840_j74783970558154_1_alg».proof.Proof.Gen.KernelIdeal.Skeleton
import proofs.«147840_j74783970558154_1_alg».proof.Proof.Gen.KernelIdeal.Launch
import proofs.«147840_j74783970558154_1_alg».proof.Proof.Gen.KernelIdeal.Points
import proofs.«147840_j74783970558154_1_alg».proof.Proof.Gen.KernelIdeal.Frame
import proofs.«147840_j74783970558154_1_alg».proof.Proof.Gen.ReferenceIdeal
import proofs.«147840_j74783970558154_1_alg».proof.Proof.Gen.Pre_finite_inputs
import proofs.«147840_j74783970558154_1_alg».proof.Proof.Gen.ReferenceIdeal.Run
import proofs.«147840_j74783970558154_1_alg».proof.Proof.Gen.ReferenceIdeal.Read
import proofs.«147840_j74783970558154_1_alg».proof.Proof.Result
import proofs.«147840_j74783970558154_1_alg».proof.Proof.RefLayer
import Idealize.ShloMosaic.Adequacy
import Idealize.ShloMosaic.Init

noncomputable section

namespace Cert.Proof

open Idealize.ShloMosaic Idealize.SL.Sem

/-- The word-level kernel runs to the end without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's text was taken over the extended reals as it stands: nothing to preserve. -/
theorem preserves : Cert.preserves_Kernel_KernelIdeal := trivial

/-- From memories that agree on the four arguments both programs end with the layer of those arguments in their
    result arrays: the kernel's run ends at the reshaped region output, which is the layer; the reference's run ends
    at its stages' composed term, which is the layer. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Layer.reference_is_linear,
    (hagree c).1, (hagree c).2.1, (hagree c).2.2.1, (hagree c).2.2.2]
  exact (Cert.KernelIdeal.Tile.result_is_linear m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
